-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x5 : Shape := ⟨2, ![4000000, 5]⟩
abbrev S4000000 : Shape := ⟨1, ![4000000]⟩
abbrev S_ : Shape := ⟨0, ![]⟩

class Facts : Prop where
  bcast_S_S4000000x5 : S_.BroadcastsInDim S4000000x5 (![] : Fin 0 → Fin S4000000x5.rank)
  reducesTo_S4000000x5_S_d0_1 : S4000000x5.ReducesTo [0, 1] S_
  h_S_ : 0 < S_.numel
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S4000000x5 .f32) (main_arg1 : FVec F S4000000x5 .f32) (main_arg2 : FVec F S4000000 .f32) : IVec S_ 1 :=
  let main_v0 : FVec F S4000000x5 .f32 := Host.absf main_arg0
  let main_cst : FVec F S_ .f32 := constant S_ .f32 0x7F800000#32
  let main_v1 : FVec F S4000000x5 .f32 := broadcastInDim S4000000x5 ![] bcast_S_S4000000x5 main_cst
  let main_v2 : IVec S4000000x5 1 := cmpf .olt main_v0 main_v1
  let main_c : IVec S_ 1 := constantI S_ 1 1#1
  let main_v3 : IVec S_ 1 := (fun x v => Host.reduce IntOp.andi x v reducesTo_S4000000x5_S_d0_1 h_S_) main_v2 main_c
  let main_v4 : FVec F S4000000x5 .f32 := Host.absf main_arg1
  let main_cst_0 : FVec F S_ .f32 := constant S_ .f32 0x7F800000#32
  let main_v5 : FVec F S4000000x5 .f32 := broadcastInDim S4000000x5 ![] bcast_S_S4000000x5 main_cst_0
  let main_v6 : IVec S4000000x5 1 := cmpf .olt main_v4 main_v5
  let main_c_1 : IVec S_ 1 := constantI S_ 1 1#1
  let main_v7 : IVec S_ 1 := (fun x v => Host.reduce IntOp.andi x v reducesTo_S4000000x5_S_d0_1 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  main_v13
-- ==== Kernel.lean ====
abbrev S4000000x5 : Shape := ⟨2, ![4000000, 5]⟩
abbrev S4000000 : Shape := ⟨1, ![4000000]⟩
abbrev S4000000x1 : Shape := ⟨2, ![4000000, 1]⟩
abbrev S8000x5 : Shape := ⟨2, ![8000, 5]⟩
abbrev S8000x1 : Shape := ⟨2, ![8000, 1]⟩
abbrev S8000 : Shape := ⟨1, ![8000]⟩

abbrev nBuf : Space → Nat
  | .hbm => 4
  | .vmem => 6
  | .smem => 0
  | _ => 0

abbrev bufTy : (tb : Table) → Fin (tcTables nBuf tb) → BufTy
  | .hbm, ⟨0, _⟩ => ⟨S4000000x5, .f32⟩
  | .hbm, ⟨1, _⟩ => ⟨S4000000x5, .f32⟩
  | .hbm, ⟨2, _⟩ => ⟨S4000000, .f32⟩
  | .hbm, ⟨3, _⟩ => ⟨S4000000x1, .f32⟩
  | .local _ .vmem, ⟨0, _⟩ => ⟨S8000x5, .f32⟩
  | .local _ .vmem, ⟨1, _⟩ => ⟨S8000x5, .f32⟩
  | .local _ .vmem, ⟨2, _⟩ => ⟨S8000x5, .f32⟩
  | .local _ .vmem, ⟨3, _⟩ => ⟨S8000x5, .f32⟩
  | .local _ .vmem, ⟨4, _⟩ => ⟨S8000x1, .f32⟩
  | .local _ .vmem, ⟨5, _⟩ => ⟨S8000x1, .f32⟩
  | _, _ => ⟨S4000000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8000x5_S8000x5_0_0 : ∀ a, (![0, 0] : Fin 2 → Nat) a + S8000x5.size a ≤ S8000x5.size a
  h_S8000x5 : 0 < S8000x5.numel
  slices_S8000x5_o0_0_S8000x1 : S8000x5.Slices ![0, 0] S8000x1
  shapeCasts_S8000x1_S8000 : S8000x1.ShapeCasts S8000
  slices_S8000x5_o0_1_S8000x1 : S8000x5.Slices ![0, 1] S8000x1
  slices_S8000x5_o0_2_S8000x1 : S8000x5.Slices ![0, 2] S8000x1
  slices_S8000x5_o0_3_S8000x1 : S8000x5.Slices ![0, 3] S8000x1
  slices_S8000x5_o0_4_S8000x1 : S8000x5.Slices ![0, 4] S8000x1
  inb_S8000x1_S8000x1_0_0 : ∀ a, (![0, 0] : Fin 2 → Nat) a + S8000x1.size a ≤ S8000x1.size a
  h_S8000x1 : 0 < S8000x1.numel
  shapeCasts_S8000_S8000x1 : S8000.ShapeCasts S8000x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x5.size a ≤ S4000000x5.size a
  hwx0_0 : ∀ i : grid0.Coords, EltTy.bits .f32 = 32 ∨ (Rect.block (s := S4000000x5) S8000x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x5.size a ≤ S4000000x5.size a
  hwx0_1 : ∀ i : grid0.Coords, EltTy.bits .f32 = 32 ∨ (Rect.block (s := S4000000x5) S8000x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S4000000x1.size a
  hwx0_2 : ∀ i : grid0.Coords, EltTy.bits .f32 = 32 ∨ (Rect.block (s := S4000000x1) S8000x1.size (cc0_transform_2 i) (hinb0_2 i)).WholeWords (EltTy.packing .f32)

variable [Facts₀]

abbrev win0_0 : Pipeline.Window sig grid0 :=
  Pipeline.Window.ofSpec (Memref.whole main_arg0) S8000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x5 : Shape := ⟨2, ![4000000, 5]⟩
abbrev S4000000 : Shape := ⟨1, ![4000000]⟩
abbrev S4000000x2 : Shape := ⟨2, ![4000000, 2]⟩
abbrev S_ : Shape := ⟨0, ![]⟩
abbrev S4000000x1 : Shape := ⟨2, ![4000000, 1]⟩

abbrev nBuf : Space → Nat
  | .hbm => 143
  | .vmem => 0
  | .smem => 0
  | _ => 0

abbrev hbmTy0_0 (i : Nat) : BufTy := match i % 128 with
  | 0 => ⟨S4000000x5, .f32⟩
  | 1 => ⟨S4000000x5, .f32⟩
  | 2 => ⟨S4000000, .f32⟩
  | 3 => ⟨S4000000x2, .f32⟩
  | 4 => ⟨S4000000x2, .f32⟩
  | 5 => ⟨S_, .f32⟩
  | 6 => ⟨S_, .f32⟩
  | 7 => ⟨S_, .f32⟩
  | 8 => ⟨S4000000x2, .f32⟩
  | 9 => ⟨S4000000x2, .f32⟩
  | 10 => ⟨S_, .f32⟩
  | 11 => ⟨S4000000x2, .f32⟩
  | 12 => ⟨S4000000x2, .f32⟩
  | 13 => ⟨S4000000x1, .f32⟩
  | 14 => ⟨S4000000, .f32⟩
  | 15 => ⟨S4000000, .f32⟩
  | 16 => ⟨S4000000, .f32⟩
  | 17 => ⟨S4000000x1, .f32⟩
  | 18 => ⟨S4000000, .f32⟩
  | 19 => ⟨S_, .f32⟩
  | 20 => ⟨S4000000, .f32⟩
  | 21 => ⟨S4000000, .f32⟩
  | 22 => ⟨S4000000, .f32⟩
  | 23 => ⟨S4000000x1, .f32⟩
  | 24 => ⟨S4000000, .f32⟩
  | 25 => ⟨S_, .f32⟩
  | 26 => ⟨S4000000, .f32⟩
  | 27 => ⟨S4000000, .f32⟩
  | 28 => ⟨S4000000, .f32⟩
  | 29 => ⟨S4000000, .f32⟩
  | 30 => ⟨S4000000, .f32⟩
  | 31 => ⟨S4000000, .f32⟩
  | 32 => ⟨S4000000, .f32⟩
  | 33 => ⟨S4000000, .f32⟩
  | 34 => ⟨S4000000, .f32⟩
  | 35 => ⟨S4000000, .f32⟩
  | 36 => ⟨S4000000, .f32⟩
  | 37 => ⟨S4000000, .f32⟩
  | 38 => ⟨S4000000, .f32⟩
  | 39 => ⟨S4000000, .f32⟩
  | 40 => ⟨S4000000, .f32⟩
  | 41 => ⟨S4000000, .f32⟩
  | 42 => ⟨S4000000x2, .f32⟩
  | 43 => ⟨S4000000x2, .f32⟩
  | 44 => ⟨S_, .f32⟩
  | 45 => ⟨S_, .f32⟩
  | 46 => ⟨S_, .f32⟩
  | 47 => ⟨S4000000x2, .f32⟩
  | 48 => ⟨S4000000x2, .f32⟩
  | 49 => ⟨S_, .f32⟩
  | 50 => ⟨S4000000x2, .f32⟩
  | 51 => ⟨S4000000x2, .f32⟩
  | 52 => ⟨S4000000x1, .f32⟩
  | 53 => ⟨S4000000, .f32⟩
  | 54 => ⟨S4000000, .f32⟩
  | 55 => ⟨S4000000, .f32⟩
  | 56 => ⟨S4000000x1, .f32⟩
  | 57 => ⟨S4000000, .f32⟩
  | 58 => ⟨S_, .f32⟩
  | 59 => ⟨S4000000, .f32⟩
  | 60 => ⟨S4000000, .f32⟩
  | 61 => ⟨S4000000, .f32⟩
  | 62 => ⟨S4000000x1, .f32⟩
  | 63 => ⟨S4000000, .f32⟩
  | 64 => ⟨S_, .f32⟩
  | 65 => ⟨S4000000, .f32⟩
  | 66 => ⟨S4000000, .f32⟩
  | 67 => ⟨S4000000, .f32⟩
  | 68 => ⟨S4000000, .f32⟩
  | 69 => ⟨S4000000, .f32⟩
  | 70 => ⟨S4000000, .f32⟩
  | 71 => ⟨S4000000, .f32⟩
  | 72 => ⟨S4000000, .f32⟩
  | 73 => ⟨S4000000, .f32⟩
  | 74 => ⟨S4000000, .f32⟩
  | 75 => ⟨S4000000, .f32⟩
  | 76 => ⟨S4000000, .f32⟩
  | 77 => ⟨S4000000, .f32⟩
  | 78 => ⟨S4000000, .f32⟩
  | 79 => ⟨S4000000, .f32⟩
  | 80 => ⟨S4000000, .f32⟩
  | 81 => ⟨S4000000, .f32⟩
  | 82 => ⟨S4000000, .f32⟩
  | 83 => ⟨S4000000, .f32⟩
  | 84 => ⟨S4000000, .f32⟩
  | 85 => ⟨S4000000, .f32⟩
  | 86 => ⟨S4000000, .f32⟩
  | 87 => ⟨S4000000x1, .f32⟩
  | 88 => ⟨S4000000, .f32⟩
  | 89 => ⟨S4000000x1, .f32⟩
  | 90 => ⟨S4000000, .f32⟩
  | 91 => ⟨S4000000, .f32⟩
  | 92 => ⟨S4000000x1, .f32⟩
  | 93 => ⟨S4000000, .f32⟩
  | 94 => ⟨S4000000x1, .f32⟩
  | 95 => ⟨S4000000, .f32⟩
  | 96 => ⟨S4000000, .f32⟩
  | 97 => ⟨S4000000, .f32⟩
  | 98 => ⟨S4000000, .f32⟩
  | 99 => ⟨S_, .f32⟩
  | 100 => ⟨S4000000, .f32⟩
  | 101 => ⟨S4000000, .f32⟩
  | 102 => ⟨S4000000, .f32⟩
  | 103 => ⟨S4000000, .f32⟩
  | 104 => ⟨S4000000, .f32⟩
  | 105 => ⟨S4000000, .f32⟩
  | 106 => ⟨S4000000, .f32⟩
  | 107 => ⟨S4000000, .f32⟩
  | 108 => ⟨S4000000, .f32⟩
  | 109 => ⟨S4000000, .f32⟩
  | 110 => ⟨S_, .f32⟩
  | 111 => ⟨S4000000, .f32⟩
  | 112 => ⟨S4000000, .f32⟩
  | 113 => ⟨S4000000, .f32⟩
  | 114 => ⟨S4000000, .f32⟩
  | 115 => ⟨S4000000, .f32⟩
  | 116 => ⟨S4000000, .f32⟩
  | 117 => ⟨S4000000, .f32⟩
  | 118 => ⟨S4000000, .f32⟩
  | 119 => ⟨S4000000, .f32⟩
  | 120 => ⟨S4000000, .f32⟩
  | 121 => ⟨S4000000, .f32⟩
  | 122 => ⟨S_, .f32⟩
  | 123 => ⟨S4000000, .f32⟩
  | 124 => ⟨S4000000, .f32⟩
  | 125 => ⟨S_, .f32⟩
  | 126 => ⟨S_, .f32⟩
  | 127 => ⟨S4000000, .f32⟩
  | _ => ⟨S4000000x5, .f32⟩

abbrev hbmTy0_1 (i : Nat) : BufTy := match i % 128 with
  | 0 => ⟨S4000000, .f32⟩
  | 1 => ⟨S4000000, .f32⟩
  | 2 => ⟨S_, .f32⟩
  | 3 => ⟨S4000000, .f32⟩
  | 4 => ⟨S4000000, .f32⟩
  | 5 => ⟨S_, .f32⟩
  | 6 => ⟨S4000000, .f32⟩
  | 7 => ⟨S4000000, .f32⟩
  | 8 => ⟨S_, .f32⟩
  | 9 => ⟨S4000000, .f32⟩
  | 10 => ⟨S4000000, .f32⟩
  | 11 => ⟨S4000000x1, .f32⟩
  | 12 => ⟨S_, .f32⟩
  | 13 => ⟨S4000000x1, .f32⟩
  | 14 => ⟨S4000000x1, .f32⟩
  | _ => ⟨S4000000x5, .f32⟩

abbrev hbmTy (i : Nat) : BufTy := match i / 128 with
  | 0 => hbmTy0_0 i
  | 1 => hbmTy0_1 i
  | _ => ⟨S4000000x5, .f32⟩

abbrev bufTy : (tb : Table) → Fin (tcTables nBuf tb) → BufTy
  | .hbm, ⟨i, _⟩ => hbmTy i
  | _, _ => ⟨S4000000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_cst_4 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_7 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_8 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_cst_9 : Ref sig .tc := ⟨.hbm, 122, rfl⟩
abbrev main_v99 : Ref sig .tc := ⟨.hbm, 123, rfl⟩
abbrev main_v100 : Ref sig .tc := ⟨.hbm, 124, rfl⟩
abbrev main_cst_10 : Ref sig .tc := ⟨.hbm, 125, rfl⟩
abbrev main_call2_v0 : Ref sig .tc := ⟨.hbm, 126, rfl⟩
abbrev main_call2_v1 : Ref sig .tc := ⟨.hbm, 127, rfl⟩
abbrev main_v101 : Ref sig .tc := ⟨.hbm, 128, rfl⟩
abbrev main_v102 : Ref sig .tc := ⟨.hbm, 129, rfl⟩
abbrev main_cst_11 : Ref sig .tc := ⟨.hbm, 130, rfl⟩
abbrev main_v103 : Ref sig .tc := ⟨.hbm, 131, rfl⟩
abbrev main_v104 : Ref sig .tc := ⟨.hbm, 132, rfl⟩
abbrev main_cst_12 : Ref sig .tc := ⟨.hbm, 133, rfl⟩
abbrev main_v105 : Ref sig .tc := ⟨.hbm, 134, rfl⟩
abbrev main_v106 : Ref sig .tc := ⟨.hbm, 135, rfl⟩
abbrev main_cst_13 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_14 : Ref sig .tc := ⟨.hbm, 140, rfl⟩
abbrev main_v110 : Ref sig .tc := ⟨.hbm, 141, rfl⟩
abbrev main_v111 : Ref sig .tc := ⟨.hbm, 142, rfl⟩

abbrev nD : Nat := 1
abbrev τ : Topo := Topo.v7x

variable {F : FTy → Type} [FloatOps F]

class Facts₀ : Prop where
  slices_S4000000x5_S4000000x2_0_0 : S4000000x5.Slices ![0, 0] S4000000x2
  slices_S4000000x5_S4000000x2_0_2 : S4000000x5.Slices ![0, 2] S4000000x2
  bcast_S_S4000000x2 : S_.BroadcastsInDim S4000000x2 (![] : Fin 0 → Fin S4000000x2.rank)
  slices_S4000000x5_S4000000x1_0_4 : S4000000x5.Slices ![0, 4] S4000000x1
  shapeCasts_S4000000x1_S4000000 : S4000000x1.ShapeCasts S4000000
  slices_S4000000x2_S4000000x1_0_0 : S4000000x2.Slices ![0, 0] S4000000x1
  bcast_S_S4000000 : S_.BroadcastsInDim S4000000 (![] : Fin 0 → Fin S4000000.rank)
  slices_S4000000x2_S4000000x1_0_1 : S4000000x2.Slices ![0, 1] S4000000x1
  bcast_S4000000_S4000000x1_0 : S4000000.BroadcastsInDim S4000000x1 (![0] : Fin 1 → Fin S4000000x1.rank)
  bcast_S_S4000000x1 : S_.BroadcastsInDim S4000000x1 (![] : Fin 0 → Fin S4000000x1.rank)

variable [Facts₀]

class Facts : Prop extends Facts₀ where

variable [Facts]
-- ==== Proof.RowLoss.lean ====
/-
  The loss of ONE ROW, as a function of the row's five box entries of each input.

  A box is (x, y, w, h, r): a centre, two side lengths and an angle. Its Gaussian has mean (x, y) and covariance
  R(r) · diag((w/2)², (h/2)²) · R(r)ᵀ, whose entries are

      s11 = a·c·c + b·s·s,   s12 = (a − b)·s·c,   s22 = a·s·s + b·c·c        (a = (w/2)², b = (h/2)², c = cos r, s = sin r)

  with the sides first clamped to [1e-7, 1e7]. For a predicted box p and a target box t, with δ = (xp − xt, yp − yt),

      D    = δᵀ Σt⁻¹ δ + tr(Σt⁻¹ Σp) + log(det Σt / det Σp) − 2        (the 2×2 inverse in closed form: both quotients by det Σt)
      loss = (1 − 1 / (1 + √(max(1e-6, D)))) · 1.

  Both programs compute exactly this expression, operation for operation and in the same order; they differ only in WHICH
  unit's quotient, cosine, sine, logarithm and square root they call (the vector unit's in the kernel, the host's in the
  reference). So the expression is written once, over those five functions as parameters, and for any float instance;
  at the extended reals the two units' functions are the same functions, which is all the comparison needs.

  Also here, because they speak of shapes only: a column of an [8000, 5] block read at a row, and an [8000] vector
  read as an [8000, 1] column.
-/
import Idealize.ShloMosaic.PureOps.Ideal
import Idealize.ShloMosaic.Lib.ValueIdx
import Idealize.ShloMosaic.Lib.Pipeline.Value

noncomputable section

namespace Cert.GDLoss

open Idealize.ShloMosaic Idealize.ShloMosaic.ValueIdx

variable {F : FTy → Type} [FloatOps F]

/-! ## The constants, by their words -/

/-- 1e-7 and 1e7 (as f32 words): the bounds of a side length. -/
abbrev sideLo : F .f32 := FloatOps.ofBits .f32 0x33D6BF95#32
abbrev sideHi : F .f32 := FloatOps.ofBits .f32 0x4B189680#32
/-- 1/2, 2, 1 and the floor 1e-6 of the divergence. -/
abbrev half : F .f32 := FloatOps.ofBits .f32 0x3F000000#32
abbrev two : F .f32 := FloatOps.ofBits .f32 0x40000000#32
abbrev one : F .f32 := FloatOps.ofBits .f32 0x3F800000#32
abbrev divFloor : F .f32 := FloatOps.ofBits .f32 0x358637BD#32

/-! ## The pieces -/

/-- A side length clamped to [1e-7, 1e7]: the lower bound first, then the upper. -/
def clampSide (w : F .f32) : F .f32 := FloatOps.minimumf sideHi (FloatOps.maximumf sideLo w)

/-- (w/2)²: the variance along a side. -/
def halfSq (w : F .f32) : F .f32 := FloatOps.mulf (FloatOps.mulf half w) (FloatOps.mulf half w)

/-- The covariance's entries from the two variances and the angle's cosine and sine. -/
def cov11 (a b c s : F .f32) : F .f32 := FloatOps.addf (FloatOps.mulf (FloatOps.mulf a c) c) (FloatOps.mulf (FloatOps.mulf b s) s)
def cov12 (a b c s : F .f32) : F .f32 := FloatOps.mulf (FloatOps.mulf (FloatOps.subf a b) s) c
def cov22 (a b c s : F .f32) : F .f32 := FloatOps.addf (FloatOps.mulf (FloatOps.mulf a s) s) (FloatOps.mulf (FloatOps.mulf b c) c)

/-- The three covariance entries of a box with sides `w`, `h` and angle `r`, over a cosine `cs` and a sine `sn`: the sides
    clamped, halved and squared, then rotated. -/
def boxCov11 (cs sn : F .f32 → F .f32) (w h r : F .f32) : F .f32 := cov11 (halfSq (clampSide w)) (halfSq (clampSide h)) (cs r) (sn r)
def boxCov12 (cs sn : F .f32 → F .f32) (w h r : F .f32) : F .f32 := cov12 (halfSq (clampSide w)) (halfSq (clampSide h)) (cs r) (sn r)
def boxCov22 (cs sn : F .f32 → F .f32) (w h r : F .f32) : F .f32 := cov22 (halfSq (clampSide w)) (halfSq (clampSide h)) (cs r) (sn r)

/-- The determinant of a symmetric 2×2 matrix. -/
def det2 (s11 s12 s22 : F .f32) : F .f32 := FloatOps.subf (FloatOps.mulf s11 s22) (FloatOps.mulf s12 s12)

/-- δᵀ adj(Σt) δ: the quadratic form of the centre offset, before the quotient by det Σt. -/
def offsetForm (t11 t12 t22 dx dy : F .f32) : F .f32 :=
  FloatOps.addf (FloatOps.subf (FloatOps.mulf (FloatOps.mulf t22 dx) dx) (FloatOps.mulf (FloatOps.mulf (FloatOps.mulf two t12) dx) dy))
    (FloatOps.mulf (FloatOps.mulf t11 dy) dy)

/-- tr(adj(Σt) Σp), before the quotient by det Σt. -/
def traceForm (t11 t12 t22 p11 p12 p22 : F .f32) : F .f32 :=
  FloatOps.addf (FloatOps.subf (FloatOps.mulf t22 p11) (FloatOps.mulf (FloatOps.mulf two t12) p12)) (FloatOps.mulf t11 p22)

/-- The divergence D of the predicted Gaussian from the target one, from the six covariance entries and the offset,
    over a quotient `dv` and a logarithm `lg`. -/
def divergence (dv : F .f32 → F .f32 → F .f32) (lg : F .f32 → F .f32) (p11 p12 p22 t11 t12 t22 dx dy : F .f32) : F .f32 :=
  FloatOps.subf
    (FloatOps.addf (dv (offsetForm t11 t12 t22 dx dy) (det2 t11 t12 t22))
      (FloatOps.addf (dv (traceForm t11 t12 t22 p11 p12 p22) (det2 t11 t12 t22)) (lg (dv (det2 t11 t12 t22) (det2 p11 p12 p22)))))
    two

/-- The loss of a divergence: (1 − 1 / (1 + √(max(1e-6, D)))) · 1, over a quotient `dv` and a square root `sq`. -/
def lossOf (dv : F .f32 → F .f32 → F .f32) (sq : F .f32 → F .f32) (d : F .f32) : F .f32 :=
  FloatOps.mulf (FloatOps.subf one (dv one (FloatOps.addf one (sq (FloatOps.maximumf divFloor d))))) one

/-- THE ROW'S LOSS from the predicted box (xp, yp, wp, hp, rp) and the target box (xt, yt, wt, ht, rt), over a quotient,
    a cosine, a sine, a logarithm and a square root. -/
def rowLoss (dv : F .f32 → F .f32 → F .f32) (cs sn lg sq : F .f32 → F .f32) (xp yp wp hp rp xt yt wt ht rt : F .f32) : F .f32 :=
  lossOf dv sq (divergence dv lg
    (boxCov11 cs sn wp hp rp) (boxCov12 cs sn wp hp rp) (boxCov22 cs sn wp hp rp)
    (boxCov11 cs sn wt ht rt) (boxCov12 cs sn wt ht rt) (boxCov22 cs sn wt ht rt)
    (FloatOps.subf xp xt) (FloatOps.subf yp yt))

/-! ## The whole array: row i of the result from rows i of the two inputs -/

/-- Row `i` of a [4000000, 1] array, as a row number. -/
abbrev rowOf (i : (⟨2, ![4000000, 1]⟩ : Shape).Idx) : Fin 4000000 := ⟨(i 0).val, (i 0).isLt⟩

/-- The result array as ONE function of the two input arrays: entry (i, 0) is the loss of row i's two boxes. -/
def lossArray (dv : F .f32 → F .f32 → F .f32) (cs sn lg sq : F .f32 → F .f32)
    (pred target : (⟨2, ![4000000, 5]⟩ : Shape).Idx → F .f32) : (⟨2, ![4000000, 1]⟩ : Shape).Idx → F .f32 := fun i =>
  rowLoss dv cs sn lg sq
    (pred (ix2 (rowOf i) (0 : Fin 5))) (pred (ix2 (rowOf i) (1 : Fin 5))) (pred (ix2 (rowOf i) (2 : Fin 5))) (pred (ix2 (rowOf i) (3 : Fin 5))) (pred (ix2 (rowOf i) (4 : Fin 5)))
    (target (ix2 (rowOf i) (0 : Fin 5))) (target (ix2 (rowOf i) (1 : Fin 5))) (target (ix2 (rowOf i) (2 : Fin 5))) (target (ix2 (rowOf i) (3 : Fin 5))) (target (ix2 (rowOf i) (4 : Fin 5)))

/-- At the extended reals the host's quotient, cosine, sine, logarithm and square root are the vector unit's: each pair
    is one function there, so the two programs' arrays are one function of the inputs. -/
theorem lossArray_host_eq_vector (pred target : (⟨2, ![4000000, 5]⟩ : Shape).Idx → Ideal .f32) :
    lossArray (F := Ideal) FloatOps.hostDivf (FloatOps.hostUnary .cos) (FloatOps.hostUnary .sin) (FloatOps.hostUnary .log) (FloatOps.hostUnary .sqrt) pred target
      = lossArray (F := Ideal) FloatOps.divf FloatOps.cos FloatOps.sin FloatOps.log FloatOps.sqrt pred target := rfl

/-! ## Two reads that depend on shapes only -/

/-- Column `c` of an [8000, 5] block, taken as an [8000, 1] slice at column offset `c` with its unit axis dropped, read at
    row `p`, is the block's entry (p, c): the cast keeps the row-major position p, and the slice shifts the column by `c`. -/
theorem column_read {α : Type} (c : Nat) (hc : c < 5) (v : (⟨2, ![8000, 5]⟩ : Shape).Idx → α)
    (hs : (⟨2, ![8000, 5]⟩ : Shape).Slices ![0, c] ⟨2, ![8000, 1]⟩)
    (hcast : (⟨2, ![8000, 1]⟩ : Shape).ShapeCasts ⟨1, ![8000]⟩) (p : Fin 8000) :
    shapeCast ⟨1, ![8000]⟩ (extractStridedSlice ⟨2, ![8000, 1]⟩ ![0, c] v hs) hcast (ix1 p) = v (ix2 p (⟨c, hc⟩ : Fin 5)) := by
  refine (shapeCast_apply _ hcast (ix1 p) (ix2 p (0 : Fin 1)) ?_).trans ?_
  · rw [Shape.rowMajor_val_two, Shape.rowMajor_val_one]
    show p.val * 1 + 0 = p.val
    omega
  · exact extractStridedSlice_apply ![0, c] v hs (ix2 p (0 : Fin 1)) (ix2 p (⟨c, hc⟩ : Fin 5)) (fun a => match a with
      | ⟨0, _⟩ => by show p.val = 0 + p.val; omega
      | ⟨1, _⟩ => by show c = c + 0; omega)

/-- An [8000] vector cast to an [8000, 1] column, read at (p, q), is the vector's entry p. -/
theorem unit_column_read {α : Type} (v : (⟨1, ![8000]⟩ : Shape).Idx → α)
    (hcast : (⟨1, ![8000]⟩ : Shape).ShapeCasts ⟨2, ![8000, 1]⟩) (p : Fin 8000) (q : Fin 1) :
    shapeCast ⟨2, ![8000, 1]⟩ v hcast (ix2 p q) = v (ix1 p) := by
  refine shapeCast_apply v hcast (ix2 p q) (ix1 p) ?_
  rw [Shape.rowMajor_val_two, Shape.rowMajor_val_one]
  show p.val = p.val * 1 + q.val
  have hq : q.val < 1 := q.isLt
  omega

end Cert.GDLoss

end
-- ==== Proof.KernelRow.lean ====
/-
  What the kernel body stores, read at one row of the block.

  The body loads the point's [8000, 5] blocks of the two inputs, takes each of the ten columns as an [8000] vector (a
  slice of one column with its unit axis dropped), computes the loss on those vectors entry by entry, and stores the
  result as an [8000, 1] column. Every operation between the column reads and the store acts entry by entry, so the
  stored column's entry (p, 0) is the row's loss of the two blocks' rows p: the ten column reads are the only steps
  that are not definitional, and each is one use of the column lemma.
-/
import proofs.«143478_j76630806495957_1_alg».proof.Proof.Gen.KernelIdeal.Frame
import proofs.«143478_j76630806495957_1_alg».proof.Proof.RowLoss

noncomputable section

namespace Cert.KernelIdeal.Row

open Cert.KernelIdeal Cert.KernelIdeal.Gen Idealize.ShloMosaic Idealize.ShloMosaic.TcCoe Idealize.ShloMosaic.ValueIdx Cert.GDLoss

variable {F : FTy → Type} [FloatOps F]

/-- The zero offsets of a whole-block access. -/
theorem offsets_zero : (![0, 0] : Fin 2 → Nat) = fun _ => 0 := funext fun a => by fin_cases a <;> rfl

/-- THE STORED COLUMN AT A ROW: after the body, entry (p, q) of the output block is the loss of row p of the two input
    blocks, over the vector unit's quotient, cosine, sine, logarithm and square root. -/
theorem out_row (x0 x1 : Vec F S8000x5 .f32) (p : Fin 8000) (q : Fin 1) :
    out0_2 x0 x1 (ix2 p q) = rowLoss FloatOps.divf FloatOps.cos FloatOps.sin FloatOps.log FloatOps.sqrt
      (x0 (ix2 p (0 : Fin 5))) (x0 (ix2 p (1 : Fin 5))) (x0 (ix2 p (2 : Fin 5))) (x0 (ix2 p (3 : Fin 5))) (x0 (ix2 p (4 : Fin 5)))
      (x1 (ix2 p (0 : Fin 5))) (x1 (ix2 p (1 : Fin 5))) (x1 (ix2 p (2 : Fin 5))) (x1 (ix2 p (3 : Fin 5))) (x1 (ix2 p (4 : Fin 5))) := by
  -- the one store covers the block, and each load reads its whole block
  unfold out0_2
  rw [View.canon_unit_zero offsets_zero]
  simp only [View.ld_unit_zero (S := S8000x5) offsets_zero]
  -- the stored value is an [8000] vector cast to a column: read it at row p
  unfold k0_pay1
  refine (unit_column_read _ shapeCasts_S8000_S8000x1 p q).trans ?_
  -- entry p of that vector is the row's loss of the ten columns' entries p (every operation acts entry by entry)
  show rowLoss FloatOps.divf FloatOps.cos FloatOps.sin FloatOps.log FloatOps.sqrt
      (shapeCast S8000 (extractStridedSlice S8000x1 ![0, 0] x0 slices_S8000x5_o0_0_S8000x1) shapeCasts_S8000x1_S8000 (ix1 p))
      (shapeCast S8000 (extractStridedSlice S8000x1 ![0, 1] x0 slices_S8000x5_o0_1_S8000x1) shapeCasts_S8000x1_S8000 (ix1 p))
      (shapeCast S8000 (extractStridedSlice S8000x1 ![0, 2] x0 slices_S8000x5_o0_2_S8000x1) shapeCasts_S8000x1_S8000 (ix1 p))
      (shapeCast S8000 (extractStridedSlice S8000x1 ![0, 3] x0 slices_S8000x5_o0_3_S8000x1) shapeCasts_S8000x1_S8000 (ix1 p))
      (shapeCast S8000 (extractStridedSlice S8000x1 ![0, 4] x0 slices_S8000x5_o0_4_S8000x1) shapeCasts_S8000x1_S8000 (ix1 p))
      (shapeCast S8000 (extractStridedSlice S8000x1 ![0, 0] x1 slices_S8000x5_o0_0_S8000x1) shapeCasts_S8000x1_S8000 (ix1 p))
      (shapeCast S8000 (extractStridedSlice S8000x1 ![0, 1] x1 slices_S8000x5_o0_1_S8000x1) shapeCasts_S8000x1_S8000 (ix1 p))
      (shapeCast S8000 (extractStridedSlice S8000x1 ![0, 2] x1 slices_S8000x5_o0_2_S8000x1) shapeCasts_S8000x1_S8000 (ix1 p))
      (shapeCast S8000 (extractStridedSlice S8000x1 ![0, 3] x1 slices_S8000x5_o0_3_S8000x1) shapeCasts_S8000x1_S8000 (ix1 p))
      (shapeCast S8000 (extractStridedSlice S8000x1 ![0, 4] x1 slices_S8000x5_o0_4_S8000x1) shapeCasts_S8000x1_S8000 (ix1 p)) = _
  -- and column c of a block at row p is the block's entry (p, c)
  rw [column_read 0 (by omega) x0, column_read 1 (by omega) x0, column_read 2 (by omega) x0, column_read 3 (by omega) x0, column_read 4 (by omega) x0,
    column_read 0 (by omega) x1, column_read 1 (by omega) x1, column_read 2 (by omega) x1, column_read 3 (by omega) x1, column_read 4 (by omega) x1]
  rfl

end Cert.KernelIdeal.Row

end
-- ==== Proof.KernelArray.lean ====
/-
  From the kernel's blocks to its whole result array.

  The grid has 500 points; at point t every window is at block index (t, 0): the inputs' blocks are rows
  8000·t … 8000·t + 7999 of the [4000000, 5] arrays (all five columns), the output's block the same rows of the
  [4000000, 1] array. So entry (p, k) of an input block at point t is the array's entry (8000·t + p, k), the entry
  (p, 0) the point writes back is the loss of the arrays' rows 8000·t + p, and since every row r lies in the block of
  point r / 8000, the whole result array ends as the loss array of the two argument arrays.
-/
import proofs.«143478_j76630806495957_1_alg».proof.Proof.Gen.KernelIdeal.Value
import proofs.«143478_j76630806495957_1_alg».proof.Proof.KernelRow

noncomputable section

namespace Cert.KernelIdeal.Whole

open Cert.KernelIdeal Cert.KernelIdeal.Gen Cert.KernelIdeal.Value Cert.KernelIdeal.Row
open Idealize.ShloMosaic Idealize.ShloMosaic.TcCoe Idealize.ShloMosaic.ValueIdx Idealize.SL.Sem Cert.GDLoss
open Idealize.ShloMosaic.Pipeline (Dat)

variable {F : FTy → Type} [FloatOps F]
variable (m : (ℓ : Loc nD τ sig) → Buf (Elt F) ℓ) (ρ : Dev nD → PrngReg)

/-- The kernel's result array on core `c`: the loss array of the two argument arrays as launched, over the vector unit's
    quotient, cosine, sine, logarithm and square root. -/
abbrev result (c : Dev nD) : Buf (Elt F) ((c : Thread nD τ).loc main_v0) :=
  lossArray FloatOps.divf FloatOps.cos FloatOps.sin FloatOps.log FloatOps.sqrt
    (m ((c : Thread nD τ).loc main_arg0)) (m ((c : Thread nD τ).loc main_arg1))

/-- The index maps, decided over the 500 points: every window is at block (t, 0). -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

/-- Entry (p, k) of the first input's block at point t is the argument's entry at the row the output block's
    entry (p, q) lies on, column k. -/
theorem block0_entry (c : Dev nD) (t : Fin cfg0.N) (p : Fin 8000) (q : Fin 1) (k : Fin 5) :
    (iblk m c 0 t : Vec F S8000x5 .f32) (ix2 p k)
      = (m ((c : Thread nD τ).loc main_arg0) : S4000000x5.Idx → Elt F .f32) (ix2 (rowOf (((cfg0.win 2).blk t).view.emb (ix2 p q))) k) := by
  obtain ⟨e00, e01, -, -, e20, -⟩ := block_index t
  unfold iblk
  rw [View.read_apply]
  show (m ((c : Thread nD τ).loc main_arg0) : S4000000x5.Idx → Elt F .f32) _ = _
  congr 1
  funext a
  apply Fin.ext
  match a with
  | ⟨0, _⟩ =>
    show win0_0.index t (0 : Fin 2) * 8000 + 1 * p.val = win0_2.index t (0 : Fin 2) * 8000 + 1 * p.val
    rw [e00, e20]
  | ⟨1, _⟩ =>
    show win0_0.index t (1 : Fin 2) * 5 + 1 * k.val = k.val
    rw [e01]; omega

/-- The same for the second input. -/
theorem block1_entry (c : Dev nD) (t : Fin cfg0.N) (p : Fin 8000) (q : Fin 1) (k : Fin 5) :
    (iblk m c 1 t : Vec F S8000x5 .f32) (ix2 p k)
      = (m ((c : Thread nD τ).loc main_arg1) : S4000000x5.Idx → Elt F .f32) (ix2 (rowOf (((cfg0.win 2).blk t).view.emb (ix2 p q))) k) := by
  obtain ⟨-, -, e10, e11, e20, -⟩ := block_index t
  unfold iblk
  rw [View.read_apply]
  show (m ((c : Thread nD τ).loc main_arg1) : S4000000x5.Idx → Elt F .f32) _ = _
  congr 1
  funext a
  apply Fin.ext
  match a with
  | ⟨0, _⟩ =>
    show win0_1.index t (0 : Fin 2) * 8000 + 1 * p.val = win0_2.index t (0 : Fin 2) * 8000 + 1 * p.val
    rw [e10, e20]
  | ⟨1, _⟩ =>
    show win0_1.index t (1 : Fin 2) * 5 + 1 * k.val = k.val
    rw [e11]; omega

/-- WHAT POINT `t` WRITES BACK is block `t` of the result array. -/
theorem flushed_eq (c : Dev nD) (t : Fin cfg0.N) :
    (dats m 0 c).flushed 2 t = ((cfg0.win 2).blk t).view.read (Elt F) (result m c) := by
  rw [flushed2]
  refine funext fun (j : S8000x1.Idx) => ?_
  obtain ⟨p, q, rfl⟩ : ∃ (p : Fin 8000) (q : Fin 1), j = ix2 p q := ⟨j 0, j 1, eq_ix2 j⟩
  show out0_2 (iblk m c 0 t) (iblk m c 1 t) (ix2 p q) = result m c (((cfg0.win 2).blk t).view.emb (ix2 p q))
  refine (out_row (iblk m c 0 t) (iblk m c 1 t) p q).trans ?_
  rw [block0_entry m c t p q 0, block0_entry m c t p q 1, block0_entry m c t p q 2, block0_entry m c t p q 3, block0_entry m c t p q 4,
    block1_entry m c t p q 0, block1_entry m c t p q 1, block1_entry m c t p q 2, block1_entry m c t p q 3, block1_entry m c t p q 4]
  rfl

/-- An index of the array is in point `t`'s block iff each coordinate is in the block's range on its axis. -/
theorem mem_block (t : Fin cfg0.N) (i : S4000000x1.Idx) :
    i ∈ ((cfg0.win 2).blk t).view.set ↔ ∀ a : Fin 2, win0_2.index t a * S8000x1.size a ≤ (i a).val ∧ (i a).val < win0_2.index t a * S8000x1.size a + S8000x1.size a := by
  show i ∈ ((View.whole main_v0).slice (win0_2.rect t)).set ↔ _
  rw [View.set_slice_whole, Rect.mem_set_unit]
  exact Iff.rfl

/-- Every entry of the result array is in the block of the point its row falls in: row r in point r / 8000. -/
theorem covered (i : S4000000x1.Idx) : ∃ t : Fin cfg0.N, (cfg0.win 2).flush t = true ∧ i ∈ ((cfg0.win 2).blk t).view.set := by
  have hi0 : (i 0).val < 4000000 := (i 0).isLt
  have hi1 : (i 1).val < 1 := (i 1).isLt
  have hN : cfg0.N = 500 := N_0
  have ht : (i 0).val / 8000 < cfg0.N := by rw [hN]; omega
  obtain ⟨-, -, -, -, e20, e21⟩ := block_index ⟨(i 0).val / 8000, ht⟩
  refine ⟨⟨(i 0).val / 8000, ht⟩, flush0_2 _, ?_⟩
  rw [mem_block]
  intro a
  match a with
  | ⟨0, _⟩ =>
    show win0_2.index ⟨(i 0).val / 8000, ht⟩ (0 : Fin 2) * 8000 ≤ (i 0).val ∧ (i 0).val < win0_2.index ⟨(i 0).val / 8000, ht⟩ (0 : Fin 2) * 8000 + 8000
    rw [e20]
    show (i 0).val / 8000 * 8000 ≤ (i 0).val ∧ (i 0).val < (i 0).val / 8000 * 8000 + 8000
    omega
  | ⟨1, _⟩ =>
    show win0_2.index ⟨(i 0).val / 8000, ht⟩ (1 : Fin 2) * 1 ≤ (i 1).val ∧ (i 1).val < win0_2.index ⟨(i 0).val / 8000, ht⟩ (1 : Fin 2) * 1 + 1
    rw [e21]
    omega

/-- THE ARRAY after the run is the loss array of the arguments. -/
theorem final (c : Dev nD) : (dats m 0 c).arrAt 2 cfg0.N = result m c :=
  (dats m 0 c).arrAt_eq_of_cover 2 (result m c) (fun t _ => flushed_eq m c t) covered

/-- The kernel's run, read: the result array at the loss array of the arguments, the arguments unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.KernelIdeal.Whole

end
-- ==== Proof.RefRow.lean ====
/-
  The reference, read at one row.

  The reference takes the ten columns of its two [4000000, 5] inputs as [4000000] vectors — by slices and reshapes,
  the two side lengths of a box clamped together as a [4000000, 2] array before they are separated — and then applies the
  loss's operations to whole vectors, entry by entry, in the order the formula is written. So entry j of each stage is
  that stage of the formula at row j's ten numbers: first the ten column reads (the only steps that are not
  definitional: each composes the slices' and the reshape's index maps, and the composite sends j to (j, column)), then
  each box's three covariance entries, then the divergence and the loss. The result's trailing unit axis and its product
  with a broadcast 1 are the last two operations of the formula.
-/
import proofs.«143478_j76630806495957_1_alg».proof.Proof.Gen.ReferenceIdeal.Read
import proofs.«143478_j76630806495957_1_alg».proof.Proof.RowLoss

noncomputable section

namespace Cert.ReferenceIdeal.Row

open Cert.ReferenceIdeal Cert.ReferenceIdeal.Gen Cert.ReferenceIdeal.Read
open Idealize.ShloMosaic Idealize.ShloMosaic.TcCoe Idealize.ShloMosaic.ValueIdx Cert.GDLoss

variable {F : FTy → Type} [FloatOps F]

/-- An input array, as the stages take it. -/
abbrev Input (F : FTy → Type) : Type := (⟨S4000000x5, .f32⟩ : BufTy).Contents (Elt F)

/-- Entry `j` of a [4000000] vector, as a row number. -/
abbrev rowAt (j : S4000000.Idx) : Fin 4000000 := ⟨(j 0).val, (j 0).isLt⟩

/-- The host's cosine and sine, as the stages spell them. -/
abbrev hcos : F .f32 → F .f32 := FloatOps.hostUnary .cos
abbrev hsin : F .f32 → F .f32 := FloatOps.hostUnary .sin

/-! ## The predicted box: the first input's five columns at row j -/

/-- x: column 0, through the [4000000, 2] slice of the centres. -/
theorem pred_x (x0 : Input F) (j : S4000000.Idx) : val_main_v67 (F := F) x0 j = x0 (ix2 (rowAt j) (0 : Fin 5)) := by
  rw [val_main_v67_apply, val_main_v66_apply, val_main_v0_apply]
  exact congrArg x0 (funext fun a => match a with
    | ⟨0, _⟩ => Fin.ext (Nat.div_one _)
    | ⟨1, _⟩ => Fin.ext rfl)

/-- y: column 1, through the same slice. -/
theorem pred_y (x0 : Input F) (j : S4000000.Idx) : val_main_v72 (F := F) x0 j = x0 (ix2 (rowAt j) (1 : Fin 5)) := by
  rw [val_main_v72_apply, val_main_v71_apply, val_main_v0_apply]
  exact congrArg x0 (funext fun a => match a with
    | ⟨0, _⟩ => Fin.ext (Nat.div_one _)
    | ⟨1, _⟩ => Fin.ext rfl)

/-- w, clamped: column 2, through the [4000000, 2] slice of the sides, which is clamped whole. -/
theorem pred_w (x0 : Input F) (j : S4000000.Idx) : val_main_v8 (F := F) x0 j = clampSide (x0 (ix2 (rowAt j) (2 : Fin 5))) := by
  rw [val_main_v8_apply, val_main_v7_apply]
  show clampSide (val_main_v1 (F := F) x0 _) = _
  rw [val_main_v1_apply]
  exact congrArg (fun z => clampSide (x0 z)) (funext fun a => match a with
    | ⟨0, _⟩ => Fin.ext (Nat.div_one _)
    | ⟨1, _⟩ => Fin.ext rfl)

/-- h, clamped: column 3, through the same clamped slice. -/
theorem pred_h (x0 : Input F) (j : S4000000.Idx) : val_main_v13 (F := F) x0 j = clampSide (x0 (ix2 (rowAt j) (3 : Fin 5))) := by
  rw [val_main_v13_apply, val_main_v12_apply]
  show clampSide (val_main_v1 (F := F) x0 _) = _
  rw [val_main_v1_apply]
  exact congrArg (fun z => clampSide (x0 z)) (funext fun a => match a with
    | ⟨0, _⟩ => Fin.ext (Nat.div_one _)
    | ⟨1, _⟩ => Fin.ext rfl)

/-- r: column 4. -/
theorem pred_r (x0 : Input F) (j : S4000000.Idx) : val_main_v4 (F := F) x0 j = x0 (ix2 (rowAt j) (4 : Fin 5)) := by
  rw [val_main_v4_apply, val_main_v3_apply]
  exact congrArg x0 (funext fun a => match a with
    | ⟨0, _⟩ => Fin.ext (Nat.div_one _)
    | ⟨1, _⟩ => Fin.ext rfl)

/-- The predicted box's covariance entries at row j. -/
theorem pred_cov11 (x0 : Input F) (j : S4000000.Idx) :
    val_main_v21 (F := F) x0 j = boxCov11 hcos hsin (x0 (ix2 (rowAt j) (2 : Fin 5))) (x0 (ix2 (rowAt j) (3 : Fin 5))) (x0 (ix2 (rowAt j) (4 : Fin 5))) := by
  show cov11 (halfSq (val_main_v8 (F := F) x0 j)) (halfSq (val_main_v13 (F := F) x0 j)) (hcos (val_main_v4 (F := F) x0 j)) (hsin (val_main_v4 (F := F) x0 j)) = _
  rw [pred_w, pred_h, pred_r]
  rfl
theorem pred_cov12 (x0 : Input F) (j : S4000000.Idx) :
    val_main_v24 (F := F) x0 j = boxCov12 hcos hsin (x0 (ix2 (rowAt j) (2 : Fin 5))) (x0 (ix2 (rowAt j) (3 : Fin 5))) (x0 (ix2 (rowAt j) (4 : Fin 5))) := by
  show cov12 (halfSq (val_main_v8 (F := F) x0 j)) (halfSq (val_main_v13 (F := F) x0 j)) (hcos (val_main_v4 (F := F) x0 j)) (hsin (val_main_v4 (F := F) x0 j)) = _
  rw [pred_w, pred_h, pred_r]
  rfl
theorem pred_cov22 (x0 : Input F) (j : S4000000.Idx) :
    val_main_v29 (F := F) x0 j = boxCov22 hcos hsin (x0 (ix2 (rowAt j) (2 : Fin 5))) (x0 (ix2 (rowAt j) (3 : Fin 5))) (x0 (ix2 (rowAt j) (4 : Fin 5))) := by
  show cov22 (halfSq (val_main_v8 (F := F) x0 j)) (halfSq (val_main_v13 (F := F) x0 j)) (hcos (val_main_v4 (F := F) x0 j)) (hsin (val_main_v4 (F := F) x0 j)) = _
  rw [pred_w, pred_h, pred_r]
  rfl

/-! ## The target box: the second input's five columns at row j -/

theorem targ_x (x1 : Input F) (j : S4000000.Idx) : val_main_v69 (F := F) x1 j = x1 (ix2 (rowAt j) (0 : Fin 5)) := by
  rw [val_main_v69_apply, val_main_v68_apply, val_main_v30_apply]
  exact congrArg x1 (funext fun a => match a with
    | ⟨0, _⟩ => Fin.ext (Nat.div_one _)
    | ⟨1, _⟩ => Fin.ext rfl)

theorem targ_y (x1 : Input F) (j : S4000000.Idx) : val_main_v74 (F := F) x1 j = x1 (ix2 (rowAt j) (1 : Fin 5)) := by
  rw [val_main_v74_apply, val_main_v73_apply, val_main_v30_apply]
  exact congrArg x1 (funext fun a => match a with
    | ⟨0, _⟩ => Fin.ext (Nat.div_one _)
    | ⟨1, _⟩ => Fin.ext rfl)

theorem targ_w (x1 : Input F) (j : S4000000.Idx) : val_main_v38 (F := F) x1 j = clampSide (x1 (ix2 (rowAt j) (2 : Fin 5))) := by
  rw [val_main_v38_apply, val_main_v37_apply]
  show clampSide (val_main_v31 (F := F) x1 _) = _
  rw [val_main_v31_apply]
  exact congrArg (fun z => clampSide (x1 z)) (funext fun a => match a with
    | ⟨0, _⟩ => Fin.ext (Nat.div_one _)
    | ⟨1, _⟩ => Fin.ext rfl)

theorem targ_h (x1 : Input F) (j : S4000000.Idx) : val_main_v43 (F := F) x1 j = clampSide (x1 (ix2 (rowAt j) (3 : Fin 5))) := by
  rw [val_main_v43_apply, val_main_v42_apply]
  show clampSide (val_main_v31 (F := F) x1 _) = _
  rw [val_main_v31_apply]
  exact congrArg (fun z => clampSide (x1 z)) (funext fun a => match a with
    | ⟨0, _⟩ => Fin.ext (Nat.div_one _)
    | ⟨1, _⟩ => Fin.ext rfl)

theorem targ_r (x1 : Input F) (j : S4000000.Idx) : val_main_v34 (F := F) x1 j = x1 (ix2 (rowAt j) (4 : Fin 5)) := by
  rw [val_main_v34_apply, val_main_v33_apply]
  exact congrArg x1 (funext fun a => match a with
    | ⟨0, _⟩ => Fin.ext (Nat.div_one _)
    | ⟨1, _⟩ => Fin.ext rfl)

/-- The target box's covariance entries at row j. -/
theorem targ_cov11 (x1 : Input F) (j : S4000000.Idx) :
    val_main_v51 (F := F) x1 j = boxCov11 hcos hsin (x1 (ix2 (rowAt j) (2 : Fin 5))) (x1 (ix2 (rowAt j) (3 : Fin 5))) (x1 (ix2 (rowAt j) (4 : Fin 5))) := by
  show cov11 (halfSq (val_main_v38 (F := F) x1 j)) (halfSq (val_main_v43 (F := F) x1 j)) (hcos (val_main_v34 (F := F) x1 j)) (hsin (val_main_v34 (F := F) x1 j)) = _
  rw [targ_w, targ_h, targ_r]
  rfl
theorem targ_cov12 (x1 : Input F) (j : S4000000.Idx) :
    val_main_v54 (F := F) x1 j = boxCov12 hcos hsin (x1 (ix2 (rowAt j) (2 : Fin 5))) (x1 (ix2 (rowAt j) (3 : Fin 5))) (x1 (ix2 (rowAt j) (4 : Fin 5))) := by
  show cov12 (halfSq (val_main_v38 (F := F) x1 j)) (halfSq (val_main_v43 (F := F) x1 j)) (hcos (val_main_v34 (F := F) x1 j)) (hsin (val_main_v34 (F := F) x1 j)) = _
  rw [targ_w, targ_h, targ_r]
  rfl
theorem targ_cov22 (x1 : Input F) (j : S4000000.Idx) :
    val_main_v59 (F := F) x1 j = boxCov22 hcos hsin (x1 (ix2 (rowAt j) (2 : Fin 5))) (x1 (ix2 (rowAt j) (3 : Fin 5))) (x1 (ix2 (rowAt j) (4 : Fin 5))) := by
  show cov22 (halfSq (val_main_v38 (F := F) x1 j)) (halfSq (val_main_v43 (F := F) x1 j)) (hcos (val_main_v34 (F := F) x1 j)) (hsin (val_main_v34 (F := F) x1 j)) = _
  rw [targ_w, targ_h, targ_r]
  rfl

/-! ## The result -/

/-- THE REFERENCE'S ARRAY is the loss array of its two inputs, over the host's quotient, cosine, sine, logarithm and
    square root: entry (i, 0) is the loss's last stage at row i, whose operands are the divergence of the two boxes'
    covariance entries and centre offsets at that row. -/
theorem result_eq (x0 x1 : Input F) :
    val_main_v111 (F := F) x0 x1
      = lossArray FloatOps.hostDivf (FloatOps.hostUnary .cos) (FloatOps.hostUnary .sin) (FloatOps.hostUnary .log) (FloatOps.hostUnary .sqrt) x0 x1 := by
  funext i
  rw [val_main_v111_apply, val_main_v109_apply]
  show lossOf FloatOps.hostDivf (FloatOps.hostUnary .sqrt) (divergence FloatOps.hostDivf (FloatOps.hostUnary .log)
      (val_main_v21 (F := F) x0 (idx_main_v109 i)) (val_main_v24 (F := F) x0 (idx_main_v109 i)) (val_main_v29 (F := F) x0 (idx_main_v109 i))
      (val_main_v51 (F := F) x1 (idx_main_v109 i)) (val_main_v54 (F := F) x1 (idx_main_v109 i)) (val_main_v59 (F := F) x1 (idx_main_v109 i))
      (FloatOps.subf (val_main_v67 (F := F) x0 (idx_main_v109 i)) (val_main_v69 (F := F) x1 (idx_main_v109 i)))
      (FloatOps.subf (val_main_v72 (F := F) x0 (idx_main_v109 i)) (val_main_v74 (F := F) x1 (idx_main_v109 i)))) = _
  rw [pred_cov11, pred_cov12, pred_cov22, targ_cov11, targ_cov12, targ_cov22, pred_x, targ_x, pred_y, targ_y]
  rfl

end Cert.ReferenceIdeal.Row

end
-- ==== Proof.lean ====
/-
  The kernel computes, for each of 4,000,000 rows, a loss between a predicted and a target rotated box: each box
  (x, y, w, h, r) is read as a Gaussian with mean (x, y) and covariance R(r) diag((w/2)², (h/2)²) R(r)ᵀ (sides clamped to
  [1e-7, 1e7]), the divergence of the predicted Gaussian from the target one is

      D = δᵀ Σt⁻¹ δ + tr(Σt⁻¹ Σp) + log(det Σt / det Σp) − 2,

  and the loss is 1 − 1 / (1 + √(max(1e-6, D))). The kernel does this on blocks of 8000 rows over a grid of 500 points;
  the reference does it on whole [4000000] vectors. Both apply the same operations in the same order with the same
  constants (Proof/RowLoss.lean writes the row's expression once), and differ only in calling the vector unit's or the
  host's quotient, cosine, sine, logarithm and square root — which at the extended reals are the same functions. So no
  algebraic law is used and the precondition is never opened:

  • Proof/KernelRow.lean: the column the body stores, at row p of its block, is the row's loss of the two input
    blocks' rows p (the ten column reads are slices with a unit axis dropped; all else acts entry by entry);
  • Proof/KernelArray.lean: block t is rows 8000·t … 8000·t + 7999 of each array, every row lies in the block of point
    row / 8000, so the result array ends as the loss array of the two arguments;
  • Proof/RefRow.lean: the reference's stages at entry j are the stages of the same expression at row j.

  The frames of the two kernel programs are the generated ones; the reference's frame is its run with the result
  dropped; the idealization rewrote nothing, so `preserves` has nothing to state.
-/
import proofs.«143478_j76630806495957_1_alg».proof.Defs
import proofs.«143478_j76630806495957_1_alg».proof.Proof.Gen.Kernel
import proofs.«143478_j76630806495957_1_alg».proof.Proof.Gen.Kernel.Skeleton
import proofs.«143478_j76630806495957_1_alg».proof.Proof.Gen.Kernel.Launch
import proofs.«143478_j76630806495957_1_alg».proof.Proof.Gen.Kernel.Points
import proofs.«143478_j76630806495957_1_alg».proof.Proof.Gen.Kernel.Frame
import proofs.«143478_j76630806495957_1_alg».proof.Proof.Gen.KernelIdeal
import proofs.«143478_j76630806495957_1_alg».proof.Proof.Gen.KernelIdeal.Skeleton
import proofs.«143478_j76630806495957_1_alg».proof.Proof.Gen.KernelIdeal.Launch
import proofs.«143478_j76630806495957_1_alg».proof.Proof.Gen.KernelIdeal.Points
import proofs.«143478_j76630806495957_1_alg».proof.Proof.Gen.KernelIdeal.Frame
import proofs.«143478_j76630806495957_1_alg».proof.Proof.Gen.ReferenceIdeal
import proofs.«143478_j76630806495957_1_alg».proof.Proof.Gen.Pre_finite_inputs
import proofs.«143478_j76630806495957_1_alg».proof.Proof.Gen.KernelIdeal.Value
import proofs.«143478_j76630806495957_1_alg».proof.Proof.Gen.ReferenceIdeal.Run
import proofs.«143478_j76630806495957_1_alg».proof.Proof.Gen.ReferenceIdeal.Read
import proofs.«143478_j76630806495957_1_alg».proof.Proof.KernelArray
import proofs.«143478_j76630806495957_1_alg».proof.Proof.RefRow
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the extended reals, from memories agreeing on the arguments, both programs end with the loss array of the two
    inputs: the kernel's over the vector unit's functions, the reference's over the host's, which are the same
    functions there. -/
theorem algebraic : Cert.algebraic_KernelIdeal_ReferenceIdeal := by
  intro m ρ m' ρ' _ hagree
  refine ⟨fun c => Cert.KernelIdeal.Whole.result m c, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v111_eq, Cert.ReferenceIdeal.Row.result_eq, (hagree c).1, (hagree c).2.1]
  exact Cert.GDLoss.lossArray_host_eq_vector _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
